-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_14" .f32 0x3D924925#32 ((1 / 14 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x7936 : Shape := ⟨2, ![8192, 7936]⟩
abbrev S8192x256 : Shape := ⟨2, ![8192, 256]⟩
abbrev S8192x1 : Shape := ⟨2, ![8192, 1]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192x7936 : S_.BroadcastsInDim S8192x7936 (![] : Fin 0 → Fin S8192x7936.rank)
  reducesTo_S8192x7936_S_d0_1 : S8192x7936.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x1 : S_.BroadcastsInDim S8192x1 (![] : Fin 0 → Fin S8192x1.rank)
  reducesTo_S8192x1_S_d0_1 : S8192x1.ReducesTo [0, 1] S_
  bcast_S_S8192 : S_.BroadcastsInDim S8192 (![] : Fin 0 → Fin S8192.rank)
  reducesTo_S8192_S_d0 : S8192.ReducesTo [0] S_

variable [Facts]

def comparator_i32_d0 : BitVec 32 → BitVec 32 → BitVec 1 :=
  fun l r =>
    let v34 := IntOp.cmpi .slt l r
    v34
def fn_part1 {F : FTy → Type} [FloatOps F] (main_arg4 : FVec F S8192 .f32) (main_arg5 : FVec F S8192x7936 .f32) (main_arg6 : IVec S8192 32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x7936 .f32 := Host.absf main_arg5
  let main_cst_8 : FVec F S_ .f32 := constant S_ .f32 0x7F800000#32
  let main_v25 : FVec F S8192x7936 .f32 := broadcastInDim S8192x7936 ![] bcast_S_S8192x7936 main_cst_8
  let main_v26 : IVec S8192x7936 1 := cmpf .olt main_v24 main_v25
  let main_c_9 : IVec S_ 1 := constantI S_ 1 1#1
  let main_v27 : IVec S_ 1 := (fun x v => Host.reduce IntOp.andi x v reducesTo_S8192x7936_S_d0_1 h_S_) main_v26 main_c_9
  let main_v28 : IVec S_ 1 := andi main_v23 main_v27
  let main_v29 : IVec S8192 32 := (fun x => Host.sort S8192 0 comparator_i32_d0 x) main_arg6
  let main_v30 : IVec S8192 32 := iotaInDim S8192 32 0
  let main_v31 : IVec S8192 1 := cmpi .eq main_v29 main_v30
  let main_c_10 : IVec S_ 1 := constantI S_ 1 1#1
  let main_v32 : IVec S_ 1 := (fun x v => Host.reduce IntOp.andi x v reducesTo_S8192_S_d0 h_S_) main_v31 main_c_10
  let main_v33 : IVec S_ 1 := andi main_v28 main_v32
  main_v33

def fn {F : FTy → Type} [FloatOps F] (main_arg0 : FVec F S64x8192 .f32) (main_arg1 : FVec F S8192x7936 .f32) (main_arg2 : FVec F S8192x256 .f32) (main_arg3 : FVec F S8192x1 .f32) (main_arg4 : FVec F S8192 .f32) (main_arg5 : FVec F S8192x7936 .f32) (main_arg6 : IVec S8192 32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192x7936 .f32 := Host.absf main_arg1
  let main_cst_0 : FVec F S_ .f32 := constant S_ .f32 0x7F800000#32
  let main_v5 : FVec F S8192x7936 .f32 := broadcastInDim S8192x7936 ![] bcast_S_S8192x7936 main_cst_0
  let main_v6 : IVec S8192x7936 1 := cmpf .olt main_v4 main_v5
  let main_c_1 : IVec S_ 1 := constantI S_ 1 1#1
  let main_v7 : IVec S_ 1 := (fun x v => Host.reduce IntOp.andi x v reducesTo_S8192x7936_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_v13 main_v16
-- ==== Kernel.lean ====
abbrev S64x8192 : Shape := ⟨2, ![64, 8192]⟩
abbrev S8192x7936 : Shape := ⟨2, ![8192, 7936]⟩
abbrev S8192x256 : Shape := ⟨2, ![8192, 256]⟩
abbrev S8192x1 : Shape := ⟨2, ![8192, 1]⟩
abbrev S8192 : Shape := ⟨1, ![8192]⟩
abbrev S_ : Shape := ⟨0, ![]⟩
abbrev S1 : Shape := ⟨1, ![1]⟩
abbrev S1x1 : Shape := ⟨2, ![1, 1]⟩
abbrev S64x7936 : Shape := ⟨2, ![64, 7936]⟩
abbrev S64x256 : Shape := ⟨2, ![64, 256]⟩
abbrev S1x8192 : Shape := ⟨2, ![1, 8192]⟩
abbrev S128x7936 : Shape := ⟨2, ![128, 7936]⟩
abbrev S128x1 : Shape := ⟨2, ![128, 1]⟩
abbrev S128x256 : Shape := ⟨2, ![128, 256]⟩
abbrev S1x128 : Shape := ⟨2, ![1, 128]⟩
abbrev S64x128 : Shape := ⟨2, ![64, 128]⟩

abbrev nBuf : Space → Nat
  | .hbm => 48
  | .vmem => 14
  | .smem => 0
  | _ => 0

abbrev bufTy : (tb : Table) → Fin (tcTables nBuf tb) → BufTy
  | .hbm, ⟨0, _⟩ => ⟨S64x8192, .f32⟩
  | .hbm, ⟨1, _⟩ => ⟨S8192x7936, .f32⟩
  | .hbm, ⟨2, _⟩ => ⟨S8192x256, .f32⟩
  | .hbm, ⟨3, _⟩ => ⟨S8192x1, .f32⟩
  | .hbm, ⟨4, _⟩ => ⟨S8192, .f32⟩
  | .hbm, ⟨5, _⟩ => ⟨S8192x7936, .f32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1, .i32⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S1x1, .i32⟩
  | .hbm, ⟨32, _⟩ => ⟨S8192x1, .i32⟩
  | .hbm, ⟨33, _⟩ => ⟨S8192x1, .i1⟩
  | .hbm, ⟨34, _⟩ => ⟨S8192x1, .i1⟩
  | .hbm, ⟨35, _⟩ => ⟨S_, .i1⟩
  | .hbm, ⟨36, _⟩ => ⟨S8192, .i1⟩
  | .hbm, ⟨37, _⟩ => ⟨S64x8192, .f32⟩
  | .hbm, ⟨38, _⟩ => ⟨S64x8192, .i1⟩
  | .hbm, ⟨39, _⟩ => ⟨S_, .f32⟩
  | .hbm, ⟨40, _⟩ => ⟨S64x8192, .f32⟩
  | .hbm, ⟨41, _⟩ => ⟨S64x8192, .f32⟩
  | .hbm, ⟨42, _⟩ => ⟨S64x7936, .f32⟩
  | .hbm, ⟨43, _⟩ => ⟨S64x7936, .bf16⟩
  | .hbm, ⟨44, _⟩ => ⟨S64x256, .f32⟩
  | .hbm, ⟨45, _⟩ => ⟨S64x256, .bf16⟩
  | .hbm, ⟨46, _⟩ => ⟨S1x8192, .f32⟩
  | .hbm, ⟨47, _⟩ => ⟨S64x8192, .f32⟩
  | .local _ .vmem, ⟨0, _⟩ => ⟨S128x7936, .f32⟩
  | .local _ .vmem, ⟨1, _⟩ => ⟨S128x7936, .f32⟩
  | .local _ .vmem, ⟨2, _⟩ => ⟨S128x7936, .f32⟩
  | .local _ .vmem, ⟨3, _⟩ => ⟨S128x7936, .f32⟩
  | .local _ .vmem, ⟨4, _⟩ => ⟨S128x1, .f32⟩
  | .local _ .vmem, ⟨5, _⟩ => ⟨S128x1, .f32⟩
  | .local _ .vmem, ⟨6, _⟩ => ⟨S128x256, .f32⟩
  | .local _ .vmem, ⟨7, _⟩ => ⟨S128x256, .f32⟩
  | .local _ .vmem, ⟨8, _⟩ => ⟨S1x128, .f32⟩
  | .local _ .vmem, ⟨9, _⟩ => ⟨S1x128, .f32⟩
  | .local _ .vmem, ⟨10, _⟩ => ⟨S64x7936, .bf16⟩
  | .local _ .vmem, ⟨11, _⟩ => ⟨S64x256, .bf16⟩
  | .local _ .vmem, ⟨12, _⟩ => ⟨S64x128, .f32⟩
  | .local _ .vmem, ⟨13, _⟩ => ⟨S64x128, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x7936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7936 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x7936 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S64x8192_1 : S8192.BroadcastsInDim S64x8192 (![1] : Fin 1 → Fin S64x8192.rank)
  bcast_S_S64x8192 : S_.BroadcastsInDim S64x8192 (![] : Fin 0 → Fin S64x8192.rank)
  slices_S64x8192_S64x7936_0_0 : S64x8192.Slices ![0, 0] S64x7936
  bitsLt_bf16_f32 : FTy.bits .bf16 < FTy.bits .f32
  slices_S64x8192_S64x256_0_7936 : S64x8192.Slices ![0, 7936] S64x256
  shapeCasts_S8192_S1x8192 : S8192.ShapeCasts S1x8192
  inb_S128x1_S128x1_0_0 : ∀ a, (![0, 0] : Fin 2 → Nat) a + S128x1.size a ≤ S128x1.size a
  h_S128x1 : 0 < S128x1.numel
  inb_S128x7936_S128x7936_0_0 : ∀ a, (![0, 0] : Fin 2 → Nat) a + S128x7936.size a ≤ S128x7936.size a
  h_S128x7936 : 0 < S128x7936.numel
  broadcasts_S128x1_S128x7936 : S128x1.Broadcasts S128x7936
  shapeCasts_S128x1_S128x1 : S128x1.ShapeCasts S128x1
  inb_S128x256_S128x256_0_0 : ∀ a, (![0, 0] : Fin 2 → Nat) a + S128x256.size a ≤ S128x256.size a
  h_S128x256 : 0 < S128x256.numel
  inb_S64x7936_S64x7936_0_0 : ∀ a, (![0, 0] : Fin 2 → Nat) a + S64x7936.size a ≤ S64x7936.size a
  h_S64x7936 : 0 < S64x7936.numel
  shapeCasts_S64x7936_S64x7936 : S64x7936.ShapeCasts S64x7936
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  scatter_S8192_S8192x1_S8192_n_0_0_1_wf : ScatterDims.WF S8192 S8192x1 S8192 [] [0] [0] 1
  gather_S64x8192_S8192x1_S64x8192_0_1_n_n_1_1_641_wf : GatherDims.WF S64x8192 S8192x1 S64x8192 [0] [1] [] [1] [] 1 ![64, 1]
  dot_S64x7936_S128x7936_S64x128_1_1_0_0_n_n_wf : DotDims.WF S64x7936 S128x7936 S64x128 [1] [1] [0] [0] [] []
  dot_S64x256_S128x256_S64x128_1_1_0_0_n_n_wf : DotDims.WF S64x256 S128x256 S64x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7936.size a ≤ S8192x7936.size a
  hwx0_0 : ∀ i : grid0.Coords, EltTy.bits .f32 = 32 ∨ (Rect.block (s := S8192x7936) S128x7936.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7936.size a ≤ S8192x7936.size a
  hwx0_1 : ∀ i : grid0.Coords, EltTy.bits .f32 = 32 ∨ (Rect.block (s := S8192x7936) S128x7936.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S8192x256.size a
  hwx0_3 : ∀ i : grid0.Coords, EltTy.bits .f32 = 32 ∨ (Rect.block (s := S8192x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x8192.size a
  hwx0_4 : ∀ i : grid0.Coords, EltTy.bits .f32 = 32 ∨ (Rect.block (s := S1x8192) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x7936.size a ≤ S64x7936.size a
  hwx0_5 : ∀ i : grid0.Coords, EltTy.bits .bf16 = 32 ∨ (Rect.block (s := S64x7936) S64x7936.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x8192.size a
  hwx0_7 : ∀ i : grid0.Coords, EltTy.bits .f32 = 32 ∨ (Rect.block (s := S64x8192) S64x128.size (cc0_transform_7 i) (hinb0_7 i)).WholeWords (EltTy.packing .f32)

variable [Facts₀]

def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S64x8192_S8192x1_S64x8192_0_1_n_n_1_1_641 : GatherDims S64x8192 S8192x1 S64x8192 where
  offsetDims := [0]
  collapsedSliceDims := [1]
  operandBatchingDims := []
  startIndicesBatchingDims := []
  startIndexMap := [1]
  indexVectorDim := 1
  sliceSizes := ![64, 1]
  wf := gather_S64x8192_S8192x1_S64x8192_0_1_n_n_1_1_641_wf
def dot_S64x7936_S128x7936_S64x128_1_1_0_0_n_n : DotDims S64x7936 S128x7936 S64x128 where
  lhsContracting := [1]
  rhsContracting := [1]
  lhsNonContracting := [0]
  rhsNonContracting := [0]
  lhsBatch := []
  rhsBatch := []
  wf := dot_S64x7936_S128x7936_S64x128_1_1_0_0_n_n_wf
def dot_S64x256_S128x256_S64x128_1_1_0_0_n_n : DotDims S64x256 S128x256 S64x128 where
  lhsContracting := [1]
  rhsContracting := [1]
  lhsNonContracting := [0]
  rhsNonContracting := [0]
  lhsBatch := []
  rhsBatch := []
  wf := dot_S64x256_S128x256_S64x128_1_1_0_0_n_n_wf

abbrev win0_0 : Pipeline.Window sig grid0 :=
  Pipeline.Window.ofSpec (Memref.whole main_arg1) S128x7936.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x7936.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x7936.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x8192 : Shape := ⟨2, ![64, 8192]⟩
abbrev S8192x7936 : Shape := ⟨2, ![8192, 7936]⟩
abbrev S8192x256 : Shape := ⟨2, ![8192, 256]⟩
abbrev S8192x1 : Shape := ⟨2, ![8192, 1]⟩
abbrev S8192 : Shape := ⟨1, ![8192]⟩
abbrev S_ : Shape := ⟨0, ![]⟩
abbrev S8192x8192 : Shape := ⟨2, ![8192, 8192]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x7936, .f32⟩
  | .hbm, ⟨2, _⟩ => ⟨S8192x256, .f32⟩
  | .hbm, ⟨3, _⟩ => ⟨S8192x1, .f32⟩
  | .hbm, ⟨4, _⟩ => ⟨S8192, .f32⟩
  | .hbm, ⟨5, _⟩ => ⟨S8192x7936, .f32⟩
  | .hbm, ⟨6, _⟩ => ⟨S8192, .i32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x7936, .f32⟩
  | .hbm, ⟨12, _⟩ => ⟨S8192x7936, .f32⟩
  | .hbm, ⟨13, _⟩ => ⟨S8192x7936, .f32⟩
  | .hbm, ⟨14, _⟩ => ⟨S8192x7936, .f32⟩
  | .hbm, ⟨15, _⟩ => ⟨S8192x7936, .f32⟩
  | .hbm, ⟨16, _⟩ => ⟨S8192x7936, .i1⟩
  | .hbm, ⟨17, _⟩ => ⟨S8192x1, .f32⟩
  | .hbm, ⟨18, _⟩ => ⟨S8192x7936, .f32⟩
  | .hbm, ⟨19, _⟩ => ⟨S8192x7936, .i1⟩
  | .hbm, ⟨20, _⟩ => ⟨S8192x1, .f32⟩
  | .hbm, ⟨21, _⟩ => ⟨S8192x7936, .f32⟩
  | .hbm, ⟨22, _⟩ => ⟨S8192x7936, .f32⟩
  | .hbm, ⟨23, _⟩ => ⟨S8192x7936, .f32⟩
  | .hbm, ⟨24, _⟩ => ⟨S8192x7936, .f32⟩
  | .hbm, ⟨25, _⟩ => ⟨S8192x7936, .f32⟩
  | .hbm, ⟨26, _⟩ => ⟨S8192x8192, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x8192, .f32⟩
  | .hbm, ⟨36, _⟩ => ⟨S8192x8192, .f32⟩
  | .hbm, ⟨37, _⟩ => ⟨S64x8192, .f32⟩
  | .hbm, ⟨38, _⟩ => ⟨S1x8192, .f32⟩
  | .hbm, ⟨39, _⟩ => ⟨S64x8192, .f32⟩
  | .hbm, ⟨40, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_v13 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  bcast_S_S8192x7936 : S_.BroadcastsInDim S8192x7936 (![] : Fin 0 → Fin S8192x7936.rank)
  bcast_S8192x1_S8192x7936_0_1 : S8192x1.BroadcastsInDim S8192x7936 (![0, 1] : Fin 2 → Fin S8192x7936.rank)
  concatenates_S8192x7936_S8192x256_S8192x8192_d1 : Shape.Concatenates [S8192x7936, S8192x256] S8192x8192 1
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  gather_S8192x8192_S8192x1_S8192x8192_0_1_n_n_1_1_81921_wf : GatherDims.WF S8192x8192 S8192x1 S8192x8192 [0] [1] [] [1] [] 1 ![8192, 1]
  dot_S64x8192_S8192x8192_S64x8192_1_0_0_1_n_n_wf : DotDims.WF S64x8192 S8192x8192 S64x8192 [1] [0] [0] [1] [] []

variable [Facts₀]

def gather_S8192x8192_S8192x1_S8192x8192_0_1_n_n_1_1_81921 : GatherDims S8192x8192 S8192x1 S8192x8192 where
  offsetDims := [0]
  collapsedSliceDims := [1]
  operandBatchingDims := []
  startIndicesBatchingDims := []
  startIndexMap := [1]
  indexVectorDim := 1
  sliceSizes := ![8192, 1]
  wf := gather_S8192x8192_S8192x1_S8192x8192_0_1_n_n_1_1_81921_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.ColumnOrder.lean ====
/-
  The column order read out of the precondition.

  The precondition says, besides the finiteness of the float inputs, that the index vector p : int32[8192] SORTS TO
  0, 1, …, 8191: p is a permutation of the 8192 column numbers. The stable sort reads p through one bijection σ of
  the positions (position k of the sorted vector is position σ k of p), so p (σ k) = k for every k: σ is the
  inverse of the permutation p, the order in which the kernel reads the activation's columns.
-/
import proofs.«417230_j19421842112618_3_alg».proof.Pre_finite_inputs
import proofs.«417230_j19421842112618_3_alg».proof.Proof.Gen.Pre_finite_inputs
import Idealize.ShloMosaic.Lib.SortFacts
import Idealize.ShloMosaic.Lib.ReduceAll
import Idealize.ShloMosaic.Lib.ValueIdx

noncomputable section

namespace Cert.Proof.ColumnOrder

open Idealize.ShloMosaic Idealize.ShloMosaic.ValueIdx

/-- Position k comes before position k' when p's word at k is below p's word at k', signed. -/
def before (p : IVec ⟨1, ![8192]⟩ 32) (k k' : Fin 8192) : Bool :=
  IntOp.cmpi .slt (p (Shape.Idx.ofFin k)) (p (Shape.Idx.ofFin k')) == 1#1

/-- THE COLUMN ORDER σ of an index vector: position k of its sorted vector is its position σ k. -/
def colOrder (p : IVec ⟨1, ![8192]⟩ 32) : Fin 8192 → Fin 8192 := sortedFrom (before p)

/-- The sort permutes the positions. -/
theorem colOrder_bijective (p : IVec ⟨1, ![8192]⟩ 32) : Function.Bijective (colOrder p) :=
  ⟨sortedFrom_injective _, sortedFrom_surjective _⟩

/-- p is a permutation of the column numbers: sorted (signed, ascending) it is 0, 1, …, 8191. -/
def IsPerm (p : IVec ⟨1, ![8192]⟩ 32) : Prop :=
  ∀ j, Host.sort ⟨1, ![8192]⟩ 0 (fun l r : BitVec 32 => IntOp.cmpi .slt l r) p j = iotaInDim ⟨1, ![8192]⟩ 32 0 j

/-- Under it, p at position σ k is the word k. -/
theorem colOrder_word (p : IVec ⟨1, ![8192]⟩ 32) (h : IsPerm p) (k : Fin 8192) :
    p (Shape.Idx.ofFin (colOrder p k)) = BitVec.ofNat 32 k.val := by
  have e := h (Shape.Idx.ofFin k)
  rw [Host.sort_rank1] at e
  show p (Shape.Idx.ofFin (sortedFrom (fun k k' => IntOp.cmpi .slt (p (Shape.Idx.ofFin k)) (p (Shape.Idx.ofFin k')) == 1#1) k)) = _
  simpa [iotaInDim] using e

/-- The same over the index built from a coordinate. -/
theorem colOrder_word' (p : IVec ⟨1, ![8192]⟩ 32) (h : IsPerm p) (k : Fin 8192) :
    p (ix1 (colOrder p k)) = BitVec.ofNat 32 k.val := by
  rw [Shape.Idx.eq_ofFin (ix1 (colOrder p k))]
  exact colOrder_word p h k

instance : Subsingleton Cert.Pre_finite_inputs.S_.Idx := ⟨fun a b => funext fun d => d.elim0⟩

/-- The precondition's last conjunct is that statement. -/
theorem isPerm_of_pre (x0 : FVec Ideal Cert.Pre_finite_inputs.S64x8192 .f32) (x1 : FVec Ideal Cert.Pre_finite_inputs.S8192x7936 .f32)
    (x2 : FVec Ideal Cert.Pre_finite_inputs.S8192x256 .f32) (x3 : FVec Ideal Cert.Pre_finite_inputs.S8192x1 .f32)
    (x4 : FVec Ideal Cert.Pre_finite_inputs.S8192 .f32) (x5 : FVec Ideal Cert.Pre_finite_inputs.S8192x7936 .f32)
    (p : IVec Cert.Pre_finite_inputs.S8192 32)
    (h : Cert.Pre_finite_inputs.fn (F := Ideal) x0 x1 x2 x3 x4 x5 p = fun _ => 1#1) : IsPerm p := by
  have h0 := congrFun h ix0
  dsimp only [Cert.Pre_finite_inputs.fn, Cert.Pre_finite_inputs.fn_part1] at h0
  have h1 := (IntOp.andi_eq_one.1 h0).2
  intro j
  have h2 := Host.reduce_andi_all _ _ _ _ _ h1 j
  exact IntOp.cmpi_eq.1 h2

end Cert.Proof.ColumnOrder

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.LibColGather.lean ====
/-
  The column gather READ AT AN INDEX, over generic extents: an operand of R rows and N columns, a column [E, 1] of
  start indices, a result of R rows and E columns. Axis 1 is collapsed and start-indexed, axis 0 is an offset axis of
  full height: result (r, e) is the operand at (r, row (idx (e, 0))), where row reads the index word signed and clamps
  it into [0, N − 1] — the same function of the word the row gather and the entry gather use.

  The dimension-number record is written out with its well-formedness as an argument, so that a program's own record of
  the same fields is this one by unfolding.
-/
import proofs.«417230_j19421842112618_3_alg».proof.Proof.LibGatherScatter

namespace Cert.Proof.GS

open Idealize.ShloMosaic Idealize.ShloMosaic.ValueIdx

/-- Column gather: operand [R, N], start indices [E, 1], result [R, E]; axis 1 collapsed and start-indexed, axis 0 an
    offset axis of full height. -/
abbrev gathC (R N E : Nat) (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

variable {α : Type}

/-- THE COLUMN GATHER AT (r, e): the operand at row r, column row (idx (e, 0)). On axis 1 (collapsed, no batching)
    the operand coordinate is the clamped start; on axis 0 (not start-indexed) it is the offset coordinate r. -/
theorem gather_gathC_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) :
    Host.gather (gathC R N E wf) x idx (ix2 r e) = x (ix2 r (row hN (idx (ix2 e (0 : Fin 1))))) := by
  unfold Host.gather
  congr 1
  funext a
  refine Fin.ext ?_
  match a with
  | ⟨0, _⟩ =>
    show (gathC R N E wf).start (ix2 r e) idx 0 + (gathC R N E wf).batchCoord (ix2 r e) 0
      + (gathC R N E wf).offCoord (ix2 r e) 0 = r.val
    rw [GatherDims.batchCoord_eq_zero _ _ _ List.not_mem_nil]
    have h0 : (0 : Fin 2) ∉ (gathC R N E wf).startIndexMap :=
      show (0 : Fin 2) ∉ ([1] : List (Fin 2)) by decide
    have hk : (0 : Fin 2) ∈ (gathC R N E wf).sKept :=
      (GatherDims.mem_sKept _ _).mpr ⟨show (0 : Fin 2) ∉ ([1] : List (Fin 2)) by decide, List.not_mem_nil⟩
    unfold GatherDims.start GatherDims.offCoord
    rw [dif_neg h0, dif_pos hk]
    simp only [Nat.zero_add]
    rfl
  | ⟨1, _⟩ =>
    show (gathC R N E wf).start (ix2 r e) idx 1 + (gathC R N E wf).batchCoord (ix2 r e) 1
      + (gathC R N E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ (gathC R N E wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl

end Cert.Proof.GS
-- ==== Proof.LibScatterSet.lean ====
/-
  A scatter that SETS (its body returns the update) read at one index, for the entry scatter: operand [N], scatter
  indices a column [E, 1], updates [E].

  The scatter is a left fold over the updates in order; update e lands on entry i exactly when e's index word, read
  signed, is i. If exactly one update e lands on i, the result's entry i is that update, whatever the operand held and
  whatever the other updates do: once the fold has passed e the entry holds upd e, and no later step touches it.
  In particular the scatter of the positions 0, 1, … at an index vector that is a permutation is the inverse
  permutation.
-/
import proofs.«417230_j19421842112618_3_alg».proof.Proof.LibGatherScatter

namespace Cert.Proof.GS

open Idealize.ShloMosaic Idealize.ShloMosaic.ValueIdx

/-- A left fold reaches a property that some step establishes and every step preserves. -/
theorem foldl_reaches {β ι : Type} (step : β → ι → β) (Q : β → Prop) (P : ι → Prop)
    (pres : ∀ r a, Q r → Q (step r a)) (est : ∀ r a, P a → Q (step r a)) :
    ∀ (l : List ι) (r : β), (∃ n ∈ l, P n) → Q (l.foldl step r)
  | [], _, h => by obtain ⟨n, hn, _⟩ := h; cases hn
  | a :: l, r, h => by
    have keep : ∀ (l : List ι) (r : β), Q r → Q (l.foldl step r) := by
      intro l
      induction l with
      | nil => intro r hr; exact hr
      | cons b l ih => intro r hr; exact ih _ (pres r b hr)
    obtain ⟨n, hn, hP⟩ := h
    rcases List.mem_cons.1 hn with rfl | hn
    · exact keep l _ (est r n hP)
    · exact foldl_reaches step Q P pres est l _ ⟨n, hn, hP⟩

/-- THE SETTING ENTRY SCATTER AT i, when exactly one update e lands there: the result's entry i is update e. -/
theorem scatter_set_scat1_apply {α : Type} {N E w : Nat}
    (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α)
    (i : Fin N) (e : Fin E) (hi : (idx (ix2 e (0 : Fin 1))).toInt = (i.val : Int))
    (huniq : ∀ e' : Fin E, (idx (ix2 e' (0 : Fin 1))).toInt = (i.val : Int) → e' = e) :
    Host.scatter (scat1 N E wf) (fun _ b => b) x idx upd (ix1 i) = upd (ix1 e) := by
  unfold Host.scatter
  refine foldl_reaches _ (fun r => r (ix1 i) = upd (ix1 e))
    (fun n => (⟨1, ![E]⟩ : Shape).rowMajor.symm n = ix1 e) ?_ ?_ _ x
    ⟨(⟨1, ![E]⟩ : Shape).rowMajor (ix1 e), List.mem_finRange _, Equiv.symm_apply_apply _ _⟩
  · intro r a hr
    cases hres : (scat1 N E wf).resultIdx? ((⟨1, ![E]⟩ : Shape).rowMajor.symm a) idx with
    | none => simp only [hres]; exact hr
    | some i₀ =>
      simp only [hres]
      by_cases h : ix1 i = i₀
      · rw [if_pos h]
        subst h
        have hsa := eq_ix1 ((⟨1, ![E]⟩ : Shape).rowMajor.symm a)
        rw [hsa] at hres
        have he := huniq _ ((scat1_resultIdx?_iff wf idx _ i).mp hres)
        show upd _ = upd (ix1 e)
        rw [hsa, he]
        rfl
      · rw [if_neg h]; exact hr
  · intro r a ha
    have hres : (scat1 N E wf).resultIdx? (ix1 e) idx = some (ix1 i) := (scat1_resultIdx?_iff wf idx e i).mpr hi
    simp only [ha, hres]
    exact if_pos trivial

end Cert.Proof.GS
-- ==== Proof.HostValues.lean ====
/-
  What the host operations in front of the region compute, as pure functions, and these read at an index.

  From the index vector p (a permutation of the column numbers) the kernel's program builds the inverse permutation by
  scattering the positions 0, 1, … to the places p names: entry p j of the result is j. It then takes the
  activation's columns in that order: column k of the taken matrix is column q k of the activation, q the scattered
  vector (an index outside the activation would read a fill value; none is). In both, a negative index word is first
  wrapped by 8192; no word here is negative.

  With σ a bijection of the columns and p (σ k) = k: the scattered vector at k is the word σ k, and the taken matrix
  at (t, k) is the activation at (t, σ k).
-/
import proofs.«417230_j19421842112618_3_alg».proof.KernelIdeal
import proofs.«417230_j19421842112618_3_alg».proof.Proof.Gen.KernelIdeal
import proofs.«417230_j19421842112618_3_alg».proof.Proof.LibColGather
import proofs.«417230_j19421842112618_3_alg».proof.Proof.LibScatterSet
import Idealize.ShloMosaic.Lib.StableHlo.Predicate
import Idealize.ShloMosaic.Lib.Pipeline.Value

noncomputable section

namespace Cert.Proof.HostValues

open Cert.KernelIdeal
open Idealize.ShloMosaic Idealize.ShloMosaic.ValueIdx Cert.Proof.GS

/-- An index vector with its negative words wrapped by 8192. -/
def wrapNeg (p : IVec S8192 32) : IVec S8192 32 :=
  select (cmpi .slt p (broadcastInDim S8192 ![] Facts₀.bcast_S_S8192 (constantI S_ 32 0#32)))
    (addi p (broadcastInDim S8192 ![] Facts₀.bcast_S_S8192 (constantI S_ 32 8192#32))) p

/-- An index vector as a column of start indices. -/
def asColumn (p : IVec S8192 32) : IVec S8192x1 32 :=
  broadcastInDim S8192x1 ![0] Facts₀.bcast_S8192_S8192x1_0 p

/-- The positions 0, 1, … scattered (set) into a zero vector at the places p names. -/
def inverseWords (p : IVec S8192 32) : IVec S8192 32 :=
  Host.scatter scatter_S8192_S8192x1_S8192_n_0_0_1 (fun _ b => b)
    (broadcastInDim S8192 ![] Facts₀.bcast_S_S8192 (constantI S_ 32 0#32)) (asColumn (wrapNeg p)) (iotaInDim S8192 32 0)

/-- Whether each start index of a column lies inside the activation's 8192 columns. -/
def inRange (q5 : IVec S8192x1 32) : IVec S8192 1 :=
  Host.reduce IntOp.andi
    (andi (cmpi .sge q5 (broadcastInDim S8192x1 ![] Facts₀.bcast_S_S8192x1 (constantI S_ 32 0#32)))
      (cmpi .sle q5 (broadcastInDim S8192x1 ![0, 1] Facts₀.bcast_S1x1_S8192x1_0_1
        (broadcastInDim S1x1 ![1] Facts₀.bcast_S1_S1x1_1 (constantI S1 32 8191#32)))))
    (constantI S_ 1 1#1) Facts₀.reducesTo_S8192x1_S8192_d1 Facts₀.h_S_

/-- The activation's columns taken in the order q names, a fill value where q names no column. -/
def takeCols (x : FVec Ideal S64x8192 .f32) (q : IVec S8192 32) : FVec Ideal S64x8192 .f32 :=
  select (broadcastInDim S64x8192 ![1] Facts₀.bcast_S8192_S64x8192_1 (inRange (asColumn (wrapNeg q))))
    (Host.gather gather_S64x8192_S8192x1_S64x8192_0_1_n_n_1_1_641 x (asColumn (wrapNeg q)))
    (broadcastInDim S64x8192 ![] Facts₀.bcast_S_S64x8192 (constant S_ .f32 0x7FC00000#32))

/-- A column number as a 32-bit word, read signed, is that number. -/
theorem toInt_word (n : Nat) (hn : n < 8192) : (BitVec.ofNat 32 n).toInt = (n : Int) :=
  StableHlo.Predicate.toInt_ofNat_small n (by omega)

/-- A word that is a column number is not negative: wrapping leaves it alone. -/
theorem wrapNeg_apply_of_small (p : IVec S8192 32) (j : Fin 8192) (n : Nat) (hn : n < 8192)
    (h : p (ix1 j) = BitVec.ofNat 32 n) : wrapNeg p (ix1 j) = BitVec.ofNat 32 n := by
  have hs : (BitVec.ofNat 32 n).slt 0#32 = false := by
    simp only [BitVec.slt, BitVec.toInt_zero, decide_eq_false_iff_not, Int.not_lt]
    rw [toInt_word n hn]; omega
  unfold wrapNeg
  rw [select_apply]
  show Scalar.select (IntOp.cmpi .slt (p (ix1 j)) 0#32) _ (p (ix1 j)) = _
  rw [h]
  show (if BitVec.ofBool ((BitVec.ofNat 32 n).slt 0#32) = 1 then _ else BitVec.ofNat 32 n) = _
  rw [hs]
  rfl

/-- The column of start indices at (e, 0) is the wrapped vector at e. -/
theorem asColumn_apply (p : IVec S8192 32) (e : Fin 8192) : asColumn p (ix2 e (0 : Fin 1)) = p (ix1 e) := by
  unfold asColumn
  exact broadcastInDim_apply _ Facts₀.bcast_S8192_S8192x1_0 p (ix2 e (0 : Fin 1)) (ix1 e) (fun a => match a with
    | ⟨0, _⟩ => by show e.val = if (8192 : Nat) = 1 then 0 else e.val; rw [if_neg (by decide)])

/-- THE SCATTERED VECTOR IS THE INVERSE PERMUTATION: at k it is the word σ k. -/
theorem inverseWords_apply (p : IVec S8192 32) (σ : Fin 8192 → Fin 8192) (hσ : Function.Bijective σ)
    (hw : ∀ k : Fin 8192, p (ix1 (σ k)) = BitVec.ofNat 32 k.val) (k : Fin 8192) :
    inverseWords p (ix1 k) = BitVec.ofNat 32 (σ k).val := by
  have hword : ∀ k' : Fin 8192, asColumn (wrapNeg p) (ix2 (σ k') (0 : Fin 1)) = BitVec.ofNat 32 k'.val := fun k' => by
    rw [asColumn_apply]
    exact wrapNeg_apply_of_small p (σ k') k'.val k'.isLt (hw k')
  have hi : (asColumn (wrapNeg p) (ix2 (σ k) (0 : Fin 1))).toInt = (k.val : Int) := by
    rw [hword k, toInt_word k.val k.isLt]
  have huniq : ∀ e' : Fin 8192, (asColumn (wrapNeg p) (ix2 e' (0 : Fin 1))).toInt = (k.val : Int) → e' = σ k := by
    intro e' he'
    obtain ⟨k', rfl⟩ := hσ.2 e'
    rw [hword k', toInt_word k'.val k'.isLt] at he'
    have hk : k' = k := Fin.ext (by exact_mod_cast he')
    rw [hk]
  unfold inverseWords
  exact scatter_set_scat1_apply (N := 8192) (E := 8192) Facts₀.scatter_S8192_S8192x1_S8192_n_0_0_1_wf _
    (asColumn (wrapNeg p)) (iotaInDim S8192 32 0) k (σ k) hi huniq

/-- A conjunction of bits that are all one, from one, is one. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi 1#1 (x a) = 1#1 := by rw [hx a]; decide
    rw [List.foldl_cons, e]
    exact foldl_andi_ones x hx l

/-- Every start index of the column lies in [0, 8191]: the range test passes at every column. -/
theorem inRange_of_all (q5 : IVec S8192x1 32) (hall : ∀ i, 0 ≤ (q5 i).toInt ∧ (q5 i).toInt ≤ 8191) (j : S8192.Idx) :
    inRange q5 j = 1#1 := by
  unfold inRange
  rw [Host.reduce_eq_foldl]
  refine foldl_andi_ones _ (fun i => ?_) _
  show IntOp.andi (IntOp.cmpi .sge (q5 i) 0#32) (IntOp.cmpi .sle (q5 i) 8191#32) = 1#1
  have h0 : IntOp.cmpi .sge (q5 i) 0#32 = 1#1 := by
    show BitVec.ofBool ((0#32).sle (q5 i)) = 1#1
    rw [show (0#32).sle (q5 i) = true from by
      simp only [BitVec.sle, BitVec.toInt_zero, decide_eq_true_eq]; exact (hall i).1]
    rfl
  have h1 : IntOp.cmpi .sle (q5 i) 8191#32 = 1#1 := by
    show BitVec.ofBool ((q5 i).sle 8191#32) = 1#1
    rw [show (q5 i).sle 8191#32 = true from by
      simp only [BitVec.sle, decide_eq_true_eq]
      rw [show (8191#32).toInt = 8191 from by decide]; exact (hall i).2]
    rfl
  rw [h0, h1]
  decide

/-- THE TAKEN MATRIX at (t, k) is the activation at (t, σ k), when q at k is the word σ k. -/
theorem takeCols_apply (x : FVec Ideal S64x8192 .f32) (q : IVec S8192 32) (σ : Fin 8192 → Fin 8192)
    (hq : ∀ k : Fin 8192, q (ix1 k) = BitVec.ofNat 32 (σ k).val) (t : Fin 64) (k : Fin 8192) :
    takeCols x q (ix2 t k) = x (ix2 t (σ k)) := by
  have hword : ∀ k' : Fin 8192, asColumn (wrapNeg q) (ix2 k' (0 : Fin 1)) = BitVec.ofNat 32 (σ k').val := fun k' => by
    rw [asColumn_apply]
    exact wrapNeg_apply_of_small q k' (σ k').val (σ k').isLt (hq k')
  have hall : ∀ i, 0 ≤ (asColumn (wrapNeg q) i).toInt ∧ (asColumn (wrapNeg q) i).toInt ≤ 8191 := by
    intro i
    have hlt : (i 1).val < 1 := (i 1).isLt
    obtain ⟨r, hr⟩ : ∃ r : Fin 8192, r = i 0 := ⟨i 0, rfl⟩
    have ei : i = ix2 r (0 : Fin 1) := by
      funext a
      match a with
      | ⟨0, _⟩ => exact hr.symm
      | ⟨1, _⟩ => exact Fin.ext (by show (i 1).val = 0; omega)
    rw [ei, hword r, toInt_word _ (σ r).isLt]
    have := (σ r).isLt
    omega
  have hmask : broadcastInDim S64x8192 ![1] Facts₀.bcast_S8192_S64x8192_1 (inRange (asColumn (wrapNeg q))) (ix2 t k)
      = 1#1 := by
    rw [broadcastInDim_apply _ Facts₀.bcast_S8192_S64x8192_1 _ (ix2 t k) (ix1 k) (fun a => match a with
      | ⟨0, _⟩ => by show k.val = if (8192 : Nat) = 1 then 0 else k.val; rw [if_neg (by decide)])]
    exact inRange_of_all _ hall _
  unfold takeCols
  rw [select_apply, hmask, select_one]
  refine (gather_gathC_apply (R := 64) (N := 8192) (E := 8192) (by decide)
    Facts₀.gather_S64x8192_S8192x1_S64x8192_0_1_n_n_1_1_641_wf x (asColumn (wrapNeg q)) t k).trans ?_
  rw [hword k, row_of_toInt (by decide) (BitVec.ofNat 32 (σ k).val) (σ k) (toInt_word _ (σ k).isLt)]

end Cert.Proof.HostValues

end
-- ==== Proof.Spec.lean ====
/-
  The layer as mathematics, at the ideal instance (floats are extended reals, a change of format is the identity).

  Inputs: activations X [64 × 8192], quantised weights W and noise N [8192 × 7936], outlier weights Fp [8192 × 256],
  a per-row clip scale A [8192 × 1], bias B [8192], and a column order σ on the 8192 input columns.

  A weight entry is clipped to its row's scale and otherwise noised: clipNoise a w n is a where w ≥ a, −a where
  w ≤ −a, and w + n · (a / 14) in between. Row o of the full weight matrix is the 7936 clipped-noised entries
  followed by the 256 outlier entries. The layer's output at token t, feature o is

      Σ_{k < 7936} X[t, σ k] · clipNoise(A[o], W[o, k], N[o, k])  +  Σ_{k < 256} X[t, σ (7936 + k)] · Fp[o, k]  +  B[o].

  The kernel computes exactly this with σ the inverse of the given column permutation, one block of 128 features at
  a time. The reference permutes the weight matrix's columns instead and contracts against X unpermuted:
  Σ_j X[t, j] · row_o[π j]; re-indexing the sum by j = σ k (σ a bijection with π (σ k) = k) and splitting the 8192
  columns into the first 7936 and the last 256 gives the same number. Only commutativity and associativity of the
  extended reals' sum and product are used, so no finiteness is needed.
-/
import Idealize.ShloMosaic.PureOps.Ideal
import Idealize.ShloMosaic.PureOps.Ideal.Laws
import Idealize.ShloMosaic.Lib.ValueIdx

noncomputable section

namespace Cert.Proof.NoisyLinear

open Idealize.ShloMosaic Idealize.ShloMosaic.ValueIdx
open scoped BigOperators

/-- Column k of the quantised part, as a column of the full 8192. -/
def lo (k : Fin 7936) : Fin 8192 := ⟨k.val, by have := k.isLt; omega⟩
/-- Column k of the outlier part, as a column of the full 8192. -/
def hi (k : Fin 256) : Fin 8192 := ⟨7936 + k.val, by have := k.isLt; omega⟩

@[simp] theorem lo_val (k : Fin 7936) : (lo k).val = k.val := rfl
@[simp] theorem hi_val (k : Fin 256) : (hi k).val = 7936 + k.val := rfl

/-- The clipped, noised weight entry, in the kernel's spelling: the noise scaled by a · (1/14). -/
def clipNoise (a w n : EReal) : EReal :=
  Scalar.select (FloatOps.cmpf (F := Ideal) (φ := .f32) .oge w a) a
    (Scalar.select (FloatOps.cmpf (F := Ideal) (φ := .f32) .ole w (-a)) (-a) (w + n * (a * ((1 / 14 : ℝ) : EReal))))

/-- Half the noise times a seventh of the scale is the noise times a fourteenth of the scale: products of extended
    reals commute and associate, and 1/2 · 1/7 = 1/14 among the reals. -/
theorem half_seventh (a n : EReal) :
    (n * ((1 / 2 : ℝ) : EReal)) * (a * ((1 / 7 : ℝ) : EReal)) = n * (a * ((1 / 14 : ℝ) : EReal)) := by
  have h : ((1 / 2 : ℝ) : EReal) * ((1 / 7 : ℝ) : EReal) = ((1 / 14 : ℝ) : EReal) := by
    rw [← EReal.coe_mul]; congr 1; norm_num
  rw [← h]
  ac_rfl

section layer

variable (X : FVec Ideal ⟨2, ![64, 8192]⟩ .f32) (W N : FVec Ideal ⟨2, ![8192, 7936]⟩ .f32)
  (Fp : FVec Ideal ⟨2, ![8192, 256]⟩ .f32) (A : FVec Ideal ⟨2, ![8192, 1]⟩ .f32) (B : FVec Ideal ⟨1, ![8192]⟩ .f32)
  (σ : Fin 8192 → Fin 8192)

/-- Entry (o, k) of the clipped, noised quantised weights. -/
def qw (o : Fin 8192) (k : Fin 7936) : EReal :=
  clipNoise (A (ix2 o (0 : Fin 1))) (W (ix2 o k)) (N (ix2 o k))

/-- Row o of the full weight matrix at column k: a clipped-noised entry below 7936, an outlier entry from there on. -/
def wrow (o : Fin 8192) (k : Fin 8192) : EReal :=
  if h : k.val < 7936 then qw W N A o ⟨k.val, h⟩ else Fp (ix2 o (⟨k.val - 7936, by have := k.isLt; omega⟩ : Fin 256))

theorem wrow_lo (o : Fin 8192) (k : Fin 7936) : wrow W N Fp A o (lo k) = qw W N A o k := by
  unfold wrow
  rw [dif_pos (show (lo k).val < 7936 from k.isLt)]
  rfl

theorem wrow_hi (o : Fin 8192) (k : Fin 256) : wrow W N Fp A o (hi k) = Fp (ix2 o k) := by
  unfold wrow
  rw [dif_neg (show ¬ (hi k).val < 7936 by rw [hi_val]; omega)]
  have e : (⟨(hi k).val - 7936, by have := k.isLt; rw [hi_val]; omega⟩ : Fin 256) = k := Fin.ext (by show (hi k).val - 7936 = k.val; rw [hi_val]; omega)
  exact congrArg (fun q => Fp (ix2 o q)) e

/-- The layer's output at token t, feature o. -/
def out (t : Fin 64) (o : Fin 8192) : EReal :=
  (∑ k : Fin 7936, X (ix2 t (σ (lo k))) * qw W N A o k) + (∑ k : Fin 256, X (ix2 t (σ (hi k))) * Fp (ix2 o k)) + B (ix1 o)

/-- The layer's output array. -/
def layer : FVec Ideal ⟨2, ![64, 8192]⟩ .f32 := fun i => out X W N Fp A B σ (i 0) (i 1)

theorem layer_apply (t : Fin 64) (o : Fin 8192) : layer X W N Fp A B σ (ix2 t o) = out X W N Fp A B σ t o := rfl

end layer

/-- A sum over the 8192 columns is the sum over the first 7936 plus the sum over the last 256. -/
theorem sum_cols_split (h : Fin 8192 → EReal) :
    ∑ k : Fin 8192, h k = (∑ k : Fin 7936, h (lo k)) + ∑ k : Fin 256, h (hi k) := by
  have e := Fin.sum_univ_add (M := EReal) (a := 7936) (b := 256) (fun i => h ⟨i.val, i.isLt⟩)
  refine Eq.trans ?_ (e.trans ?_)
  · rfl
  · rfl

/-- THE RE-INDEXING. A contraction of a row x against a weight row read through a column map col, re-indexed along a
    bijection σ that col undoes, is the contraction of x read through σ against the weight row itself, split at
    column 7936. -/
theorem contract_reindex (x c : Fin 8192 → EReal) (col σ : Fin 8192 → Fin 8192) (hσ : Function.Bijective σ)
    (hcol : ∀ k, col (σ k) = k) :
    ∑ j : Fin 8192, x j * c (col j)
      = (∑ k : Fin 7936, x (σ (lo k)) * c (lo k)) + ∑ k : Fin 256, x (σ (hi k)) * c (hi k) := by
  rw [← sum_cols_split (fun k => x (σ k) * c k)]
  rw [← Function.Bijective.sum_comp hσ (fun j => x j * c (col j))]
  exact Finset.sum_congr rfl fun k _ => by rw [hcol k]

end Cert.Proof.NoisyLinear

end
-- ==== Proof.KernelHost.lean ====
/-
  What the region finds in the three windows the host operations compute, read at an index.

  In front of the region the program runs three stretches of host operations: the first scatters the positions at the
  index vector (the inverse permutation's words); the second takes the activation's columns in that order; the third
  cuts the taken matrix into its first 7936 and its last 256 columns (the change of float format is the identity here)
  and lays the bias out as one row. Each stretch's result is the pure function of the stretch's inputs that
  HostValues names, by computation; the stretches compose.

  Hence, with p the index vector, a permutation of the column numbers, and σ its column order (p (σ k) = k):
  the first cut at (t, k) is the activation at (t, σ k), the second at (t, k) the activation at (t, σ (7936 + k)),
  and the bias row at (0, o) is the bias at o.
-/
import proofs.«417230_j19421842112618_3_alg».proof.Proof.Gen.KernelIdeal.Frame
import proofs.«417230_j19421842112618_3_alg».proof.Proof.HostValues
import proofs.«417230_j19421842112618_3_alg».proof.Proof.ColumnOrder
import proofs.«417230_j19421842112618_3_alg».proof.Proof.Spec
import Idealize.ShloMosaic.Lib.StableHlo.Run
import Idealize.ShloMosaic.Lib.Pipeline.Value
import Idealize.ShloMosaic.Lib.ValueLayout

set_option maxRecDepth 16384

noncomputable section

namespace Cert.Proof.KernelHost

open Cert.KernelIdeal Cert.KernelIdeal.Gen
open Idealize.ShloMosaic Idealize.ShloMosaic.TcCoe Idealize.SL.Sem Idealize.ShloMosaic.StableHlo Idealize.ShloMosaic.ValueIdx
open Cert.Proof.HostValues Cert.Proof.NoisyLinear Cert.Proof.ColumnOrder

/-! ## Each stretch, from any contents -/

section stretches

variable (U : Valuation τ sig (Elt Ideal))

/-- The first stretch leaves the scattered positions in its last buffer. -/
theorem first_scatter :
    (after (hostOps0 (F := Ideal)) U (Proc.devRef .tc main_v8) : IVec S8192 32)
      = inverseWords (U (Proc.devRef .tc main_arg6)) := by
  unfold hostOps0
  after_results
  rfl

/-- It does not write the activation … -/
theorem first_keeps_x : after (hostOps0 (F := Ideal)) U (Proc.devRef .tc main_arg0) = U (Proc.devRef .tc main_arg0) := by
  unfold hostOps0
  after_results

/-- … nor the bias. -/
theorem first_keeps_b : after (hostOps0 (F := Ideal)) U (Proc.devRef .tc main_arg4) = U (Proc.devRef .tc main_arg4) := by
  unfold hostOps0
  after_results

set_option maxHeartbeats 1000000 in
/-- The second stretch leaves the taken matrix in its last buffer. -/
theorem second_take :
    (after (hostOps0_1 (F := Ideal)) U (Proc.devRef .tc main_v9) : FVec Ideal S64x8192 .f32)
      = takeCols (U (Proc.devRef .tc main_arg0)) (U (Proc.devRef .tc main_v8)) := by
  unfold hostOps0_1
  after_results_simp
  rfl

set_option maxHeartbeats 1000000 in
/-- It does not write the bias. -/
theorem second_keeps_b : after (hostOps0_1 (F := Ideal)) U (Proc.devRef .tc main_arg4) = U (Proc.devRef .tc main_arg4) := by
  unfold hostOps0_1
  after_results_simp

/-- The third stretch: the first 7936 columns of the taken matrix, … -/
theorem third_xq :
    @Eq (FVec Ideal S64x7936 .bf16) (after (hostOps0_2 (F := Ideal)) U (Proc.devRef .tc main_v11))
      (truncf (F := Ideal) .bf16 (extractStridedSlice S64x7936 ![0, 0] (U (Proc.devRef .tc main_v9) : FVec Ideal S64x8192 .f32)
          Facts₀.slices_S64x8192_S64x7936_0_0) Facts₀.bitsLt_bf16_f32) := by
  unfold hostOps0_2
  after_results

/-- … its last 256 columns, … -/
theorem third_xfp :
    @Eq (FVec Ideal S64x256 .bf16) (after (hostOps0_2 (F := Ideal)) U (Proc.devRef .tc main_v13))
      (truncf (F := Ideal) .bf16 (extractStridedSlice S64x256 ![0, 7936] (U (Proc.devRef .tc main_v9) : FVec Ideal S64x8192 .f32)
          Facts₀.slices_S64x8192_S64x256_0_7936) Facts₀.bitsLt_bf16_f32) := by
  unfold hostOps0_2
  after_results

/-- … and the bias as one row. -/
theorem third_b :
    (after (hostOps0_2 (F := Ideal)) U (Proc.devRef .tc main_v14) : FVec Ideal S1x8192 .f32)
      = shapeCast S1x8192 (U (Proc.devRef .tc main_arg4) : FVec Ideal S8192 .f32) Facts₀.shapeCasts_S8192_S1x8192 := by
  unfold hostOps0_2
  after_results
  rfl

end stretches

/-! ## The stretches composed: what the region finds -/

variable (m : (ℓ : Loc nD τ sig) → Buf (Elt Ideal) ℓ)

/-- The region finds the three stretches run one after the other from the launch contents. -/
theorem V_stretches (c : Dev nD) (b : Ref sig .tc) :
    V m c b = after (hostOps0_2 (F := Ideal)) (after (hostOps0_1 (F := Ideal)) (after (hostOps0 (F := Ideal)) (fun b => m (c, b))))
      (Proc.devRef .tc b) := by
  show after (List.flatten [hostOps0, hostOps0_1, hostOps0_2]) (fun b => m (c, b)) (Proc.devRef .tc b) = _
  rw [List.flatten_cons, List.flatten_cons, List.flatten_cons, List.flatten_nil, List.append_nil,
    StableHlo.after_append, StableHlo.after_append]

/-- The taken matrix the third stretch cuts: the activation's columns in the order the scattered positions name. -/
theorem taken_eq (c : Dev nD) :
    (after (hostOps0_1 (F := Ideal)) (after (hostOps0 (F := Ideal)) (fun b => m (c, b))) (Proc.devRef .tc main_v9)
        : FVec Ideal S64x8192 .f32)
      = takeCols (m ((c : Thread nD τ).loc main_arg0)) (inverseWords (m ((c : Thread nD τ).loc main_arg6))) := by
  rw [second_take, first_scatter, first_keeps_x]

/-- The taken matrix at (t, k) is the activation at (t, σ k), σ the index vector's column order. -/
theorem taken_apply (c : Dev nD) (hp : IsPerm (m ((c : Thread nD τ).loc main_arg6))) (t : Fin 64) (k : Fin 8192) :
    takeCols (m ((c : Thread nD τ).loc main_arg0)) (inverseWords (m ((c : Thread nD τ).loc main_arg6))) (ix2 t k)
      = (m ((c : Thread nD τ).loc main_arg0) : FVec Ideal S64x8192 .f32)
          (ix2 t (colOrder (m ((c : Thread nD τ).loc main_arg6)) k)) :=
  takeCols_apply _ _ (colOrder (m ((c : Thread nD τ).loc main_arg6)))
    (fun k => inverseWords_apply _ _ (colOrder_bijective _) (colOrder_word' _ hp) k) t k

/-- THE FIRST CUT at (t, k) is the activation at (t, σ k). -/
theorem hostXq_apply (c : Dev nD) (hp : IsPerm (m ((c : Thread nD τ).loc main_arg6))) (t : Fin 64) (k : Fin 7936) :
    (V m c main_v11 : FVec Ideal S64x7936 .bf16) (ix2 t k)
      = (m ((c : Thread nD τ).loc main_arg0) : FVec Ideal S64x8192 .f32)
          (ix2 t (colOrder (m ((c : Thread nD τ).loc main_arg6)) (lo k))) := by
  rw [V_stretches, third_xq, taken_eq, truncf_apply,
    slice2_axis1_apply 0 _ Facts₀.slices_S64x8192_S64x7936_0_0 t k (lo k) (by rw [lo_val, Nat.zero_add])]
  exact taken_apply m c hp t (lo k)

/-- THE SECOND CUT at (t, k) is the activation at (t, σ (7936 + k)). -/
theorem hostXfp_apply (c : Dev nD) (hp : IsPerm (m ((c : Thread nD τ).loc main_arg6))) (t : Fin 64) (k : Fin 256) :
    (V m c main_v13 : FVec Ideal S64x256 .bf16) (ix2 t k)
      = (m ((c : Thread nD τ).loc main_arg0) : FVec Ideal S64x8192 .f32)
          (ix2 t (colOrder (m ((c : Thread nD τ).loc main_arg6)) (hi k))) := by
  rw [V_stretches, third_xfp, taken_eq, truncf_apply,
    slice2_axis1_apply 7936 _ Facts₀.slices_S64x8192_S64x256_0_7936 t k (hi k) (hi_val k)]
  exact taken_apply m c hp t (hi k)

/-- THE BIAS ROW at (0, o) is the bias at o. -/
theorem hostB_apply (c : Dev nD) (o : Fin 8192) :
    (V m c main_v14 : FVec Ideal S1x8192 .f32) (ix2 (0 : Fin 1) o)
      = (m ((c : Thread nD τ).loc main_arg4) : FVec Ideal S8192 .f32) (ix1 o) := by
  rw [V_stretches, third_b, second_keeps_b, first_keeps_b]
  exact shapeCast_a_1a_apply _ _ 0 o

end Cert.Proof.KernelHost

end
-- ==== Proof.KernelBlocks.lean ====
/-
  The kernel's output array is the layer, given what the host operations in front of the region leave in the three
  windows they compute.

  The grid has 64 points; point g computes features 128 g … 128 g + 127 for all 64 tokens. Its body clips and noises
  its 128 × 7936 block of quantised weights (the noise times the scale times 1/14), contracts the permuted
  activation's first 7936 columns against it and the last 256 columns against its block of outlier weights, and adds
  the bias: entry (t, r) of the block is the layer's entry (t, 128 g + r). The 64 blocks tile the 8192 features.
-/
import proofs.«417230_j19421842112618_3_alg».proof.Proof.Gen.KernelIdeal.Value
import proofs.«417230_j19421842112618_3_alg».proof.Proof.Spec
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.Proof.KernelBlocks

open Cert.KernelIdeal Cert.KernelIdeal.Gen Cert.KernelIdeal.Value
open Idealize.ShloMosaic Idealize.ShloMosaic.TcCoe Idealize.SL.Sem Idealize.ShloMosaic.ValueIdx Cert.Proof.NoisyLinear
open Idealize.ShloMosaic.Pipeline (Dat)
open scoped BigOperators

variable (m : (ℓ : Loc nD τ sig) → Buf (Elt Ideal) ℓ)

/-- The argument arrays as launched, at their literal types. -/
abbrev argX (c : Dev nD) : FVec Ideal S64x8192 .f32 := m ((c : Thread nD τ).loc main_arg0)
abbrev argW (c : Dev nD) : FVec Ideal S8192x7936 .f32 := m ((c : Thread nD τ).loc main_arg1)
abbrev argFp (c : Dev nD) : FVec Ideal S8192x256 .f32 := m ((c : Thread nD τ).loc main_arg2)
abbrev argA (c : Dev nD) : FVec Ideal S8192x1 .f32 := m ((c : Thread nD τ).loc main_arg3)
abbrev argB (c : Dev nD) : FVec Ideal S8192 .f32 := m ((c : Thread nD τ).loc main_arg4)
abbrev argN (c : Dev nD) : FVec Ideal S8192x7936 .f32 := m ((c : Thread nD τ).loc main_arg5)

/-- The three arrays the host operations compute for the region, at their literal types: the permuted activation's
    first 7936 columns, its last 256 columns, and the bias as one row. -/
abbrev hostXq (c : Dev nD) : FVec Ideal S64x7936 .bf16 := V m c main_v11
abbrev hostXfp (c : Dev nD) : FVec Ideal S64x256 .bf16 := V m c main_v13
abbrev hostB (c : Dev nD) : FVec Ideal S1x8192 .f32 := V m c main_v14

/-! ## The body's arithmetic at an entry -/

/-- The named constant is the rational 1/14. -/
theorem inv14 : Named.named (F := Ideal) κ "inv_14" (φ := .f32) 0x3D924925#32 = ((1 / 14 : ℝ) : EReal) :=
  IdealRules.named_const.ideal_named_scalar _ _ _ _ rfl

/-- A [128, 1] column broadcast along the 7936 columns reads, at (r, k), the column's entry of row r. -/
theorem bcast_col (x : S128x1.Idx → EReal) (h : S128x1.Broadcasts S128x7936) (r : Fin 128) (k : Fin 7936) :
    broadcastTo S128x7936 x h (ix2 r k) = x (ix2 r (0 : Fin 1)) :=
  broadcastTo_apply x h _ _ (fun a => by
    match a with
    | ⟨0, _⟩ => rfl
    | ⟨1, _⟩ => rfl)

/-- A [1, 128] row broadcast along the 64 tokens reads, at (t, r), the row's entry of column r. -/
theorem bcast_row (x : S1x128.Idx → EReal) (h : S1x128.Broadcasts S64x128) (t : Fin 64) (r : Fin 128) :
    broadcastTo S64x128 x h (ix2 t r) = x (ix2 (0 : Fin 1) r) :=
  broadcastTo_apply x h _ _ (fun a => by
    match a with
    | ⟨0, _⟩ => rfl
    | ⟨1, _⟩ => rfl)

/-! The operand indices of the two contractions: both operands contract on their axis 1; the left operand's axis 0
    is the output's axis 0, the right operand's axis 0 is the output's axis 1. -/

theorem lhs_q_0 (i : S64x128.Idx) (q : dot_S64x7936_S128x7936_S64x128_1_1_0_0_n_n.contr.Idx) :
    (dot_S64x7936_S128x7936_S64x128_1_1_0_0_n_n.lhsIdx i q 0).val = (i 0).val := by
  unfold DotDims.lhsIdx
  rw [dif_neg (show ¬(0 : Fin S64x7936.rank) ∈ dot_S64x7936_S128x7936_S64x128_1_1_0_0_n_n.lhsBatch by decide), dif_pos (show (0 : Fin S64x7936.rank) ∈ dot_S64x7936_S128x7936_S64x128_1_1_0_0_n_n.lhsNonContracting by decide)]
  rfl
theorem lhs_q_1 (i : S64x128.Idx) (q : dot_S64x7936_S128x7936_S64x128_1_1_0_0_n_n.contr.Idx) :
    (dot_S64x7936_S128x7936_S64x128_1_1_0_0_n_n.lhsIdx i q 1).val = (q ⟨0, by decide⟩).val :=
  dot_S64x7936_S128x7936_S64x128_1_1_0_0_n_n.lhsIdx_val_of_single rfl i q
theorem rhs_q_0 (i : S64x128.Idx) (q : dot_S64x7936_S128x7936_S64x128_1_1_0_0_n_n.contr.Idx) :
    (dot_S64x7936_S128x7936_S64x128_1_1_0_0_n_n.rhsIdx i q 0).val = (i 1).val := by
  unfold DotDims.rhsIdx
  rw [dif_neg (show ¬(0 : Fin S128x7936.rank) ∈ dot_S64x7936_S128x7936_S64x128_1_1_0_0_n_n.rhsBatch by decide), dif_pos (show (0 : Fin S128x7936.rank) ∈ dot_S64x7936_S128x7936_S64x128_1_1_0_0_n_n.rhsNonContracting by decide)]
  rfl
theorem rhs_q_1 (i : S64x128.Idx) (q : dot_S64x7936_S128x7936_S64x128_1_1_0_0_n_n.contr.Idx) :
    (dot_S64x7936_S128x7936_S64x128_1_1_0_0_n_n.rhsIdx i q 1).val = (q ⟨0, by decide⟩).val :=
  dot_S64x7936_S128x7936_S64x128_1_1_0_0_n_n.rhsIdx_val_of_single rfl i q

theorem lhs_f_0 (i : S64x128.Idx) (q : dot_S64x256_S128x256_S64x128_1_1_0_0_n_n.contr.Idx) :
    (dot_S64x256_S128x256_S64x128_1_1_0_0_n_n.lhsIdx i q 0).val = (i 0).val := by
  unfold DotDims.lhsIdx
  rw [dif_neg (show ¬(0 : Fin S64x256.rank) ∈ dot_S64x256_S128x256_S64x128_1_1_0_0_n_n.lhsBatch by decide), dif_pos (show (0 : Fin S64x256.rank) ∈ dot_S64x256_S128x256_S64x128_1_1_0_0_n_n.lhsNonContracting by decide)]
  rfl
theorem lhs_f_1 (i : S64x128.Idx) (q : dot_S64x256_S128x256_S64x128_1_1_0_0_n_n.contr.Idx) :
    (dot_S64x256_S128x256_S64x128_1_1_0_0_n_n.lhsIdx i q 1).val = (q ⟨0, by decide⟩).val :=
  dot_S64x256_S128x256_S64x128_1_1_0_0_n_n.lhsIdx_val_of_single rfl i q
theorem rhs_f_0 (i : S64x128.Idx) (q : dot_S64x256_S128x256_S64x128_1_1_0_0_n_n.contr.Idx) :
    (dot_S64x256_S128x256_S64x128_1_1_0_0_n_n.rhsIdx i q 0).val = (i 1).val := by
  unfold DotDims.rhsIdx
  rw [dif_neg (show ¬(0 : Fin S128x256.rank) ∈ dot_S64x256_S128x256_S64x128_1_1_0_0_n_n.rhsBatch by decide), dif_pos (show (0 : Fin S128x256.rank) ∈ dot_S64x256_S128x256_S64x128_1_1_0_0_n_n.rhsNonContracting by decide)]
  rfl
theorem rhs_f_1 (i : S64x128.Idx) (q : dot_S64x256_S128x256_S64x128_1_1_0_0_n_n.contr.Idx) :
    (dot_S64x256_S128x256_S64x128_1_1_0_0_n_n.rhsIdx i q 1).val = (q ⟨0, by decide⟩).val :=
  dot_S64x256_S128x256_S64x128_1_1_0_0_n_n.rhsIdx_val_of_single rfl i q

/-- The contraction over the 7936 quantised columns into the zero accumulator, at (t, r): the sum over k of the
    left operand at (t, k) times the right operand at (r, k). -/
theorem matmul_q_apply (l : FVec Ideal S64x7936 .bf16) (w : FVec Ideal S128x7936 .bf16) (t : Fin 64) (r : Fin 128) :
    matmul dot_S64x7936_S128x7936_S64x128_1_1_0_0_n_n none l w (constant S64x128 .f32 0x00000000#32) (ix2 t r)
      = ∑ k : Fin 7936, l (ix2 t k) * w (ix2 r k) := by
  simp only [matmul]
  rw [Ideal.matmul_constant_zero_apply, ← Equiv.sum_comp (ValueIdx.contrEquiv1 dot_S64x7936_S128x7936_S64x128_1_1_0_0_n_n 7936 rfl rfl).symm]
  refine Finset.sum_congr rfl fun k _ => ?_
  have hk := ValueIdx.contrEquiv1_symm_val dot_S64x7936_S128x7936_S64x128_1_1_0_0_n_n 7936 rfl rfl k
  have el : dot_S64x7936_S128x7936_S64x128_1_1_0_0_n_n.lhsIdx (ix2 t r) ((ValueIdx.contrEquiv1 dot_S64x7936_S128x7936_S64x128_1_1_0_0_n_n 7936 rfl rfl).symm k) = ix2 t k := funext fun a => Fin.ext (by
    match a with
    | ⟨0, _⟩ => exact lhs_q_0 _ _
    | ⟨1, _⟩ => exact (lhs_q_1 _ _).trans hk)
  have er : dot_S64x7936_S128x7936_S64x128_1_1_0_0_n_n.rhsIdx (ix2 t r) ((ValueIdx.contrEquiv1 dot_S64x7936_S128x7936_S64x128_1_1_0_0_n_n 7936 rfl rfl).symm k) = ix2 r k := funext fun a => Fin.ext (by
    match a with
    | ⟨0, _⟩ => exact rhs_q_0 _ _
    | ⟨1, _⟩ => exact (rhs_q_1 _ _).trans hk)
  rw [el, er]

/-- The contraction over the 256 outlier columns, likewise. -/
theorem matmul_f_apply (l : FVec Ideal S64x256 .bf16) (w : FVec Ideal S128x256 .bf16) (t : Fin 64) (r : Fin 128) :
    matmul dot_S64x256_S128x256_S64x128_1_1_0_0_n_n none l w (constant S64x128 .f32 0x00000000#32) (ix2 t r)
      = ∑ k : Fin 256, l (ix2 t k) * w (ix2 r k) := by
  simp only [matmul]
  rw [Ideal.matmul_constant_zero_apply, ← Equiv.sum_comp (ValueIdx.contrEquiv1 dot_S64x256_S128x256_S64x128_1_1_0_0_n_n 256 rfl rfl).symm]
  refine Finset.sum_congr rfl fun k _ => ?_
  have hk := ValueIdx.contrEquiv1_symm_val dot_S64x256_S128x256_S64x128_1_1_0_0_n_n 256 rfl rfl k
  have el : dot_S64x256_S128x256_S64x128_1_1_0_0_n_n.lhsIdx (ix2 t r) ((ValueIdx.contrEquiv1 dot_S64x256_S128x256_S64x128_1_1_0_0_n_n 256 rfl rfl).symm k) = ix2 t k := funext fun a => Fin.ext (by
    match a with
    | ⟨0, _⟩ => exact lhs_f_0 _ _
    | ⟨1, _⟩ => exact (lhs_f_1 _ _).trans hk)
  have er : dot_S64x256_S128x256_S64x128_1_1_0_0_n_n.rhsIdx (ix2 t r) ((ValueIdx.contrEquiv1 dot_S64x256_S128x256_S64x128_1_1_0_0_n_n 256 rfl rfl).symm k) = ix2 r k := funext fun a => Fin.ext (by
    match a with
    | ⟨0, _⟩ => exact rhs_f_0 _ _
    | ⟨1, _⟩ => exact (rhs_f_1 _ _).trans hk)
  rw [el, er]

/-- THE BODY'S ARITHMETIC AT AN ENTRY. Entry (t, r) of what the body stores, from the blocks it loads: the contraction
    of token t's first 7936 activations against row r's clipped, noised weights, plus the contraction of its last 256
    activations against row r's outlier weights, plus the bias of column r. -/
theorem pay_apply (v0 : FVec Ideal S128x1 .f32) (v3 v4 : FVec Ideal S128x7936 .f32) (v23 : FVec Ideal S128x256 .f32)
    (v25 : FVec Ideal S64x7936 .bf16) (v28 : FVec Ideal S64x256 .bf16) (v32 : FVec Ideal S1x128 .f32)
    (t : Fin 64) (r : Fin 128) :
    (k0_pay1 (F := Ideal) v0 v3 v4 v23 v25 v28 v32 (ix2 t r) : EReal)
      = ((∑ k : Fin 7936, (v25 (ix2 t k) : EReal) * clipNoise (v0 (ix2 r (0 : Fin 1))) (v3 (ix2 r k)) (v4 (ix2 r k)))
        + (∑ k : Fin 256, (v28 (ix2 t k) : EReal) * (v23 (ix2 r k) : EReal)) + (v32 (ix2 (0 : Fin 1) r) : EReal) : EReal) := by
  unfold k0_pay1
  simp only [shapeCast_self]
  rw [addf_apply, addf_apply, matmul_q_apply, matmul_f_apply, bcast_row]
  congr 1; congr 1
  refine Finset.sum_congr rfl fun k _ => ?_
  congr 1
  rw [truncf_apply, select_apply, select_apply, cmpf_apply, cmpf_apply, addf_apply, mulf_apply]
  simp only [bcast_col, subf_apply, mulf_apply, broadcast_apply, inv14]
  have hzero : (FloatOps.ofBits (F := Ideal) .f32 0x00000000#32 : EReal) = 0 := Ideal.ofBits_zero_f32
  rw [hzero, zero_sub]
  rfl

/-! ## What a point writes back -/

theorem zero_offsets : (![0, 0] : Fin 2 → Nat) = fun _ => 0 := funext fun a => by fin_cases a <;> rfl

/-- The windows' index maps at each of the 64 points: the four weight-side windows move with the point on the row
    axis (block g), the bias and the output on the column axis (block g); the two activation windows stay at block
    (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Window 0's block at point g, entry (q, k): the quantised weights' row 128 g + q, column k. -/
theorem blkW_apply (c : Dev nD) (t : Fin cfg0.N) (q : Fin 128) (k : Fin 7936) (o : Fin 8192)
    (ho : o.val = 128 * t.val + q.val) :
    (iblk m c 0 t : FVec Ideal S128x7936 .f32) (ix2 q k) = argW m c (ix2 o k) := by
  obtain ⟨e0, e1, -⟩ := index_maps t
  unfold iblk
  show V m c main_arg1 (((cfg0.win 0).blk t).view.emb (ix2 q k)) = argW m c (ix2 o k)
  refine (congrFun (V_main_arg1 m c) _).trans ?_
  refine congrArg (argW m c) ?_
  funext a; apply Fin.ext
  match a with
  | ⟨0, _⟩ => show win0_0.index t (0 : Fin 2) * 128 + 1 * q.val = o.val; omega
  | ⟨1, _⟩ => show win0_0.index t (1 : Fin 2) * 7936 + 1 * k.val = k.val; omega

/-- Window 1's block at point g, entry (q, k): the noise's row 128 g + q, column k. -/
theorem blkN_apply (c : Dev nD) (t : Fin cfg0.N) (q : Fin 128) (k : Fin 7936) (o : Fin 8192)
    (ho : o.val = 128 * t.val + q.val) :
    (iblk m c 1 t : FVec Ideal S128x7936 .f32) (ix2 q k) = argN m c (ix2 o k) := by
  obtain ⟨-, -, e0, e1, -⟩ := index_maps t
  unfold iblk
  show V m c main_arg5 (((cfg0.win 1).blk t).view.emb (ix2 q k)) = argN m c (ix2 o k)
  refine (congrFun (V_main_arg5 m c) _).trans ?_
  refine congrArg (argN m c) ?_
  funext a; apply Fin.ext
  match a with
  | ⟨0, _⟩ => show win0_1.index t (0 : Fin 2) * 128 + 1 * q.val = o.val; omega
  | ⟨1, _⟩ => show win0_1.index t (1 : Fin 2) * 7936 + 1 * k.val = k.val; omega

/-- Window 2's block at point g, entry (q, 0): the scale of row 128 g + q. -/
theorem blkA_apply (c : Dev nD) (t : Fin cfg0.N) (q : Fin 128) (o : Fin 8192)
    (ho : o.val = 128 * t.val + q.val) :
    (iblk m c 2 t : FVec Ideal S128x1 .f32) (ix2 q (0 : Fin 1)) = argA m c (ix2 o (0 : Fin 1)) := by
  obtain ⟨-, -, -, -, e0, e1, -⟩ := index_maps t
  unfold iblk
  show V m c main_arg3 (((cfg0.win 2).blk t).view.emb (ix2 q (0 : Fin 1))) = argA m c (ix2 o (0 : Fin 1))
  refine (congrFun (V_main_arg3 m c) _).trans ?_
  refine congrArg (argA m c) ?_
  funext a; apply Fin.ext
  match a with
  | ⟨0, _⟩ => show win0_2.index t (0 : Fin 2) * 128 + 1 * q.val = o.val; omega
  | ⟨1, _⟩ => show win0_2.index t (1 : Fin 2) * 1 + 1 * (0 : Fin 1).val = (0 : Fin 1).val; omega

/-- Window 3's block at point g, entry (q, k): the outlier weights' row 128 g + q, column k. -/
theorem blkFp_apply (c : Dev nD) (t : Fin cfg0.N) (q : Fin 128) (k : Fin 256) (o : Fin 8192)
    (ho : o.val = 128 * t.val + q.val) :
    (iblk m c 3 t : FVec Ideal S128x256 .f32) (ix2 q k) = argFp m c (ix2 o k) := by
  obtain ⟨-, -, -, -, -, -, e0, e1, -⟩ := index_maps t
  unfold iblk
  show V m c main_arg2 (((cfg0.win 3).blk t).view.emb (ix2 q k)) = argFp m c (ix2 o k)
  refine (congrFun (V_main_arg2 m c) _).trans ?_
  refine congrArg (argFp m c) ?_
  funext a; apply Fin.ext
  match a with
  | ⟨0, _⟩ => show win0_3.index t (0 : Fin 2) * 128 + 1 * q.val = o.val; omega
  | ⟨1, _⟩ => show win0_3.index t (1 : Fin 2) * 256 + 1 * k.val = k.val; omega

/-- Window 4's block at point g, entry (0, q): the bias row's column 128 g + q. -/
theorem blkB_apply (c : Dev nD) (t : Fin cfg0.N) (q : Fin 128) (o : Fin 8192)
    (ho : o.val = 128 * t.val + q.val) :
    (iblk m c 4 t : FVec Ideal S1x128 .f32) (ix2 (0 : Fin 1) q) = hostB m c (ix2 (0 : Fin 1) o) := by
  obtain ⟨-, -, -, -, -, -, -, -, e0, e1, -⟩ := index_maps t
  unfold iblk
  show V m c main_v14 (((cfg0.win 4).blk t).view.emb (ix2 (0 : Fin 1) q)) = hostB m c (ix2 (0 : Fin 1) o)
  refine congrArg (hostB m c) ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 128 + 1 * q.val = o.val; omega

/-- Window 5's block at every point is the whole array of the activation's first 7936 permuted columns. -/
theorem blkXq_apply (c : Dev nD) (t : Fin cfg0.N) (p : Fin 64) (k : Fin 7936) :
    (iblk m c 5 t : FVec Ideal S64x7936 .bf16) (ix2 p k) = hostXq m c (ix2 p k) := by
  obtain ⟨-, -, -, -, -, -, -, -, -, -, e0, e1, -⟩ := index_maps t
  unfold iblk
  show V m c main_v11 (((cfg0.win 5).blk t).view.emb (ix2 p k)) = hostXq m c (ix2 p k)
  refine congrArg (hostXq m c) ?_
  funext a; apply Fin.ext
  match a with
  | ⟨0, _⟩ => show win0_5.index t (0 : Fin 2) * 64 + 1 * p.val = p.val; omega
  | ⟨1, _⟩ => show win0_5.index t (1 : Fin 2) * 7936 + 1 * k.val = k.val; omega

/-- Window 6's block at every point is the whole array of the activation's last 256 permuted columns. -/
theorem blkXfp_apply (c : Dev nD) (t : Fin cfg0.N) (p : Fin 64) (k : Fin 256) :
    (iblk m c 6 t : FVec Ideal S64x256 .bf16) (ix2 p k) = hostXfp m c (ix2 p k) := by
  obtain ⟨-, -, -, -, -, -, -, -, -, -, -, -, e0, e1, -⟩ := index_maps t
  unfold iblk
  show V m c main_v13 (((cfg0.win 6).blk t).view.emb (ix2 p k)) = hostXfp m c (ix2 p k)
  refine congrArg (hostXfp m c) ?_
  funext a; apply Fin.ext
  match a with
  | ⟨0, _⟩ => show win0_6.index t (0 : Fin 2) * 64 + 1 * p.val = p.val; omega
  | ⟨1, _⟩ => show win0_6.index t (1 : Fin 2) * 256 + 1 * k.val = k.val; omega

/-- The output's block at point g, entry (p, q), is the array's entry (p, 128 g + q). -/
theorem out_emb (t : Fin cfg0.N) (p : Fin 64) (q : Fin 128) (o : Fin 8192) (ho : o.val = 128 * t.val + q.val) :
    ((cfg0.win 7).blk t).view.emb (ix2 p q) = (ix2 p o : S64x8192.Idx) := by
  obtain ⟨-, -, -, -, -, -, -, -, -, -, -, -, -, -, e0, e1⟩ := index_maps t
  funext a; apply Fin.ext
  match a with
  | ⟨0, _⟩ => show win0_7.index t (0 : Fin 2) * 64 + 1 * p.val = p.val; omega
  | ⟨1, _⟩ => show win0_7.index t (1 : Fin 2) * 128 + 1 * q.val = o.val; omega

theorem clipNoise_congr {a a' w w' n n' : EReal} (ha : a = a') (hw : w = w') (hn : n = n') :
    clipNoise a w n = clipNoise a' w' n' := by subst ha hw hn; rfl

/-- WHAT POINT g WRITES BACK is block g of the layer's output array: entry (p, q) of the body's result is the
    layer's entry (p, 128 g + q), each block read where the output's rectangle says. -/
theorem flushed_layer (c : Dev nD) (σ : Fin 8192 → Fin 8192)
    (hq : ∀ (t : Fin 64) (k : Fin 7936), hostXq m c (ix2 t k) = argX m c (ix2 t (σ (lo k))))
    (hf : ∀ (t : Fin 64) (k : Fin 256), hostXfp m c (ix2 t k) = argX m c (ix2 t (σ (hi k))))
    (hb : ∀ o : Fin 8192, hostB m c (ix2 (0 : Fin 1) o) = argB m c (ix1 o)) (t : Fin cfg0.N) :
    (dats m 0 c).flushed 7 t = ((cfg0.win 7).blk t).view.read (Elt Ideal)
      (layer (argX m c) (argW m c) (argN m c) (argFp m c) (argA m c) (argB m c) σ) := by
  rw [Value.flushed7]
  unfold Gen.out0_7
  rw [View.canon_unit_zero zero_offsets]
  simp only [View.ld_unit_zero (S := S128x1) zero_offsets, View.ld_unit_zero (S := S128x7936) zero_offsets,
    View.ld_unit_zero (S := S128x256) zero_offsets, View.ld_unit_zero (S := S64x7936) zero_offsets,
    View.ld_unit_zero (S := S64x256) zero_offsets, View.ld_unit_zero (S := S1x128) zero_offsets]
  funext j
  obtain ⟨p, q, rfl⟩ : ∃ (p : Fin 64) (q : Fin 128), j = ix2 p q := ⟨j 0, j 1, eq_ix2 j⟩
  have ht : t.val < 64 := t.isLt
  have hq' : q.val < 128 := q.isLt
  obtain ⟨o, ho⟩ : ∃ o : Fin 8192, o.val = 128 * t.val + q.val := ⟨⟨128 * t.val + q.val, by omega⟩, rfl⟩
  refine (pay_apply (iblk m c 2 t) (iblk m c 0 t) (iblk m c 1 t) (iblk m c 3 t) (iblk m c 5 t) (iblk m c 6 t) (iblk m c 4 t) p q).trans ?_
  refine Eq.trans ?_ (congrArg (layer (argX m c) (argW m c) (argN m c) (argFp m c) (argA m c) (argB m c) σ) (out_emb t p q o ho)).symm
  rw [layer_apply]
  unfold out qw
  refine congrArg₂ (· + ·) (congrArg₂ (· + ·) (Finset.sum_congr rfl fun k _ => ?_) (Finset.sum_congr rfl fun k _ => ?_)) ?_
  · exact congrArg₂ (· * ·) ((blkXq_apply m c t p k).trans (hq p k))
      (clipNoise_congr (blkA_apply m c t q o ho) (blkW_apply m c t q k o ho) (blkN_apply m c t q k o ho))
  · exact congrArg₂ (· * ·) ((blkXfp_apply m c t p k).trans (hf p k)) (blkFp_apply m c t q k o ho)
  · exact (blkB_apply m c t q o ho).trans (hb o)

/-! ## From the blocks to the array -/

/-- An index of the output array is in point g's block iff each coordinate is in the block's range on its axis. -/
theorem mem_out_blk (t : Fin cfg0.N) (i : S64x8192.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v15).slice (win0_7.rect t)).set ↔ _
  rw [View.set_slice_whole, Rect.mem_set_unit]
  exact Iff.rfl

/-- THE 64 BLOCKS TILE THE 8192 FEATURES: column o of the output is in the block of point o / 128, which writes back. -/
theorem out_cover (i : S64x8192.Idx) :
    ∃ t : Fin cfg0.N, (cfg0.win 7).flush t = true ∧ i ∈ ((cfg0.win 7).blk t).view.set := by
  have hi0 : (i 0).val < 64 := (i 0).isLt
  have hi1 : (i 1).val < 8192 := (i 1).isLt
  obtain ⟨t, ht⟩ : ∃ t : Fin cfg0.N, t.val = (i 1).val / 128 :=
    ⟨⟨(i 1).val / 128, by rw [show cfg0.N = 64 from N_0]; omega⟩, rfl⟩
  obtain ⟨-, -, -, -, -, -, -, -, -, -, -, -, -, -, e0, e1⟩ := index_maps t
  refine ⟨t, flush0_7 t, ?_⟩
  rw [mem_out_blk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- THE KERNEL'S OUTPUT ARRAY IS THE LAYER, for any column order σ through which the host operations read the
    activation. -/
theorem kernel_array (c : Dev nD) (σ : Fin 8192 → Fin 8192)
    (hq : ∀ (t : Fin 64) (k : Fin 7936), hostXq m c (ix2 t k) = argX m c (ix2 t (σ (lo k))))
    (hf : ∀ (t : Fin 64) (k : Fin 256), hostXfp m c (ix2 t k) = argX m c (ix2 t (σ (hi k))))
    (hb : ∀ o : Fin 8192, hostB m c (ix2 (0 : Fin 1) o) = argB m c (ix1 o)) :
    (dats m 0 c).arrAt 7 cfg0.N = layer (argX m c) (argW m c) (argN m c) (argFp m c) (argA m c) (argB m c) σ :=
  (dats m 0 c).arrAt_eq_of_cover 7 (layer (argX m c) (argW m c) (argN m c) (argFp m c) (argA m c) (argB m c) σ)
    (fun t _ => flushed_layer m c σ hq hf hb t) out_cover

end Cert.Proof.KernelBlocks

end
-- ==== Proof.RefLayer.lean ====
/-
  The reference's result is the layer.

  The reference clips and noises the quantised weights (the noise halved, the scale divided by seven), joins them with
  the outlier weights into rows of 8192 columns, reads column p j of every row into column j (p the index vector, a
  negative word wrapped by 8192 first, then clamped into the row), and contracts the activation's row against the
  result: entry (t, o) is Σ_j X[t, j] · row_o[p j] + B[o]. With σ a bijection of the columns and p (σ k) = k, the sum
  re-indexed by j = σ k and split at column 7936 is the layer's (Spec: contract_reindex), and the reference's
  clipped-noised entry is the layer's (half_seventh).
-/
import proofs.«417230_j19421842112618_3_alg».proof.Proof.Gen.ReferenceIdeal.Read
import proofs.«417230_j19421842112618_3_alg».proof.Proof.Spec
import proofs.«417230_j19421842112618_3_alg».proof.Proof.LibColGather
import Idealize.ShloMosaic.Lib.Pipeline.Value

noncomputable section

namespace Cert.Proof.RefLayer

open Cert.ReferenceIdeal Cert.ReferenceIdeal.Gen Cert.ReferenceIdeal.Read
open Idealize.ShloMosaic Idealize.ShloMosaic.ValueIdx Cert.Proof.NoisyLinear Cert.Proof.GS
open scoped BigOperators

/-- The pattern 0x3F000000 denotes one half. -/
theorem ofBits_half : Ideal.ofBits .f32 0x3F000000#32 = ((1 / 2 : ℝ) : EReal) := by
  simp [Ideal.ofBits, Ideal.ieee, -EReal.coe_mul]; norm_num

/-- The pattern 0x40E00000 denotes seven. -/
theorem ofBits_seven : Ideal.ofBits .f32 0x40E00000#32 = ((7 : ℝ) : EReal) := by
  simp [Ideal.ofBits, Ideal.ieee, -EReal.coe_mul]; norm_num

/-- Row o, column 0 of the scale, from any column k of the quantised block. -/
theorem idx_scale (o : Fin 8192) (k : Fin 7936) : idx_main_v6 (ix2 o k) = ix2 o (0 : Fin 1) := by
  funext a; match a with | ⟨0, _⟩ => rfl | ⟨1, _⟩ => rfl

/-- The reference's clipped, noised entry (o, k) is the layer's. -/
theorem v14_entry (x1 x5 : FVec Ideal S8192x7936 .f32) (x3 : FVec Ideal S8192x1 .f32) (o : Fin 8192) (k : Fin 7936) :
    val_main_v14 (F := Ideal) x1 x3 x5 (ix2 o k) = qw x1 x5 x3 o k := by
  have e6 : idx_main_v6 (ix2 o k) = ix2 o (0 : Fin 1) := idx_scale o k
  have e9 : idx_main_v9 (ix2 o k) = ix2 o (0 : Fin 1) := idx_scale o k
  have e4 : idx_main_v4 (ix2 o k) = ix2 o (0 : Fin 1) := idx_scale o k
  have ec0 : idx_main_call0_v0 (ix2 o k) = ix2 o (0 : Fin 1) := idx_scale o k
  have ec1 : idx_main_call1_v0 (ix2 o k) = ix2 o (0 : Fin 1) := idx_scale o k
  rw [val_main_v14_apply, val_main_v7_apply, val_main_v6_apply, val_main_call1_v0_apply, val_main_v13_apply,
    val_main_v10_apply, val_main_v9_apply, val_main_v8_apply, val_main_call0_v0_apply, val_main_v11_apply,
    val_main_v12_apply, val_main_v5_apply, val_main_v3_apply, val_main_v2_apply, val_main_cst_0_apply,
    val_main_v4_apply, val_main_v1_apply, val_main_v0_apply, val_main_cst_apply, e6, e9, e4, ec0, ec1]
  simp only [Ideal.hostNegf_def, Ideal.negf_def, Ideal.addf_def, Ideal.mulf_def, Ideal.hostDivf_def, Ideal.ofBits_def,
    ofBits_half, ofBits_seven]
  rw [Ideal.div_coe (by norm_num : (7 : ℝ) ≠ 0), half_seventh]
  rfl

/-- The joined row o at column j: a clipped-noised entry below column 7936, an outlier entry from there on. -/
theorem v15_entry (x1 x5 : FVec Ideal S8192x7936 .f32) (x2 : FVec Ideal S8192x256 .f32) (x3 : FVec Ideal S8192x1 .f32)
    (o j : Fin 8192) :
    val_main_v15 (F := Ideal) x1 x2 x3 x5 (ix2 o j) = wrow x1 x5 x2 x3 o j := by
  unfold val_main_v15 wrow
  by_cases h : j.val < 7936
  · rw [dif_pos h]
    rw [concatenate_pair_apply_left (t := S8192x8192) (s₁ := S8192x7936) (s₂ := S8192x256) (1 : Fin 2) _ _
      concatenates_S8192x7936_S8192x256_S8192x8192_d1 (ix2 o j) rfl
      (ix2 o (⟨j.val, h⟩ : Fin 7936)) (fun b => match b with | ⟨0, _⟩ => rfl | ⟨1, _⟩ => rfl)]
    exact v14_entry x1 x5 x3 o ⟨j.val, h⟩
  · rw [dif_neg h]
    exact concatenate_pair_apply_right (t := S8192x8192) (s₁ := S8192x7936) (s₂ := S8192x256) (1 : Fin 2) _ _
      concatenates_S8192x7936_S8192x256_S8192x8192_d1 (ix2 o j) rfl rfl
      (ix2 o (⟨j.val - 7936, by have := j.isLt; omega⟩ : Fin 256))
      (fun b hb => match b, hb with
        | ⟨0, _⟩, _ => rfl
        | ⟨1, _⟩, hb => absurd rfl hb)
      (by show j.val - 7936 + 7936 = j.val; omega)

/-- The column of the joined row that the reference reads into column j: the index word at j, a negative word wrapped
    by 8192, read signed and clamped into the row. -/
def col (x6 : IVec S8192 32) (j : Fin 8192) : Fin 8192 :=
  row (N := 8192) (by decide) (val_main_v21 (F := Ideal) x6 (ix2 j (0 : Fin 1)))

/-- At j = σ k the index word is the number k < 8192: it is not negative, so it is not wrapped, its signed value is k,
    and the clamp leaves it alone: the column read is k. -/
theorem col_sigma (x6 : IVec S8192 32) (σ : Fin 8192 → Fin 8192)
    (hw : ∀ k : Fin 8192, x6 (ix1 (σ k)) = BitVec.ofNat 32 k.val) (k : Fin 8192) : col x6 (σ k) = k := by
  unfold col
  apply row_of_toInt
  have e : idx_main_v21 (ix2 (σ k) (0 : Fin 1)) = ix1 (σ k) := by
    funext a; match a with | ⟨0, _⟩ => rfl
  rw [val_main_v21_apply, e, val_main_v20_apply, val_main_v17_apply, val_main_v16_apply, val_main_c_apply, hw k]
  have hk : (BitVec.ofNat 32 k.val).toInt = k.val := by
    have hlt := k.isLt
    have hn : (BitVec.ofNat 32 k.val).toNat = k.val := by
      rw [BitVec.toNat_ofNat]; exact Nat.mod_eq_of_lt (by omega)
    rw [BitVec.toInt_eq_toNat_cond, hn]
    split <;> omega
  have hs : (BitVec.ofNat 32 k.val).slt 0#32 = false := by
    simp only [BitVec.slt, BitVec.toInt_zero, decide_eq_false_iff_not, Int.not_lt]
    rw [hk]; omega
  show (if BitVec.ofBool ((BitVec.ofNat 32 k.val).slt 0#32) = 1 then _ else BitVec.ofNat 32 k.val : BitVec 32).toInt = _
  rw [hs]
  exact hk

/-- The gathered matrix at (o, j) is the joined row o at the column read for j. -/
theorem v22_entry (x1 x5 : FVec Ideal S8192x7936 .f32) (x2 : FVec Ideal S8192x256 .f32) (x3 : FVec Ideal S8192x1 .f32)
    (x6 : IVec S8192 32) (o j : Fin 8192) :
    val_main_v22 (F := Ideal) x1 x2 x3 x5 x6 (ix2 o j)
      = val_main_v15 (F := Ideal) x1 x2 x3 x5 (ix2 o (col x6 j)) := by
  unfold val_main_v22 col
  exact gather_gathC_apply (R := 8192) (N := 8192) (E := 8192) (by decide)
    Facts₀.gather_S8192x8192_S8192x1_S8192x8192_0_1_n_n_1_1_81921_wf _ _ o j

/-- THE REFERENCE IS THE LAYER, for an index vector x6 that a bijection σ of the columns inverts. -/
theorem reference_is_layer (x0 : FVec Ideal S64x8192 .f32) (x1 x5 : FVec Ideal S8192x7936 .f32)
    (x2 : FVec Ideal S8192x256 .f32) (x3 : FVec Ideal S8192x1 .f32) (x4 : FVec Ideal S8192 .f32) (x6 : IVec S8192 32)
    (σ : Fin 8192 → Fin 8192) (hσ : Function.Bijective σ)
    (hw : ∀ k : Fin 8192, x6 (ix1 (σ k)) = BitVec.ofNat 32 k.val) :
    val_main_v27 (F := Ideal) x0 x1 x2 x3 x4 x5 x6 = layer x0 x1 x5 x2 x3 x4 σ := by
  funext i
  obtain ⟨t, o, rfl⟩ : ∃ (t : Fin 64) (o : Fin 8192), i = ix2 t o := ⟨i 0, i 1, eq_ix2 i⟩
  rw [val_main_v27_apply, val_main_v24_apply, val_main_v26_apply, val_main_v25_apply, layer_apply]
  have hsum : ∑ k : Fin 8192, x0 (lidx_main_v24 (ix2 t o) k)
        * val_main_v23 (F := Ideal) x1 x2 x3 x5 x6 (ridx_main_v24 (ix2 t o) k)
      = ∑ j : Fin 8192, (fun j => x0 (ix2 t j)) j * (wrow x1 x5 x2 x3 o) (col x6 j) :=
    Finset.sum_congr rfl fun j _ => by
      have el : lidx_main_v24 (ix2 t o) j = ix2 t j := by
        funext a; match a with | ⟨0, _⟩ => rfl | ⟨1, _⟩ => rfl
      have er : idx_main_v23 (ridx_main_v24 (ix2 t o) j) = ix2 o j := by
        funext a; match a with | ⟨0, _⟩ => rfl | ⟨1, _⟩ => rfl
      rw [val_main_v23_apply, el, er, v22_entry, v15_entry]
  have eb : idx_main_v25 (idx_main_v26 (ix2 t o)) = ix1 o := by
    funext a; match a with | ⟨0, _⟩ => rfl
  rw [hsum, contract_reindex _ _ (col x6) σ hσ (col_sigma x6 σ hw), eb, Ideal.addf_def]
  simp only [wrow_lo, wrow_hi]
  rfl

end Cert.Proof.RefLayer

end
-- ==== Proof.lean ====
/-
  The certificate: a linear layer whose quantised weights are clipped to a per-row scale and noised, whose outlier
  weights are kept as they are, and whose input columns are permuted.

  The reference joins the clipped-noised weights and the outlier weights into rows of 8192 columns, permutes the
  columns by the index vector p, and contracts the activation against the result. The kernel instead permutes the
  ACTIVATION's columns by the inverse of p (built on the host by scattering the positions at p) and contracts its
  first 7936 columns against the clipped-noised weights and its last 256 against the outlier weights, one block of 128
  output features per grid point. The two agree exactly when p is a permutation of the 8192 column numbers, which is
  what the precondition says of p (its sort is 0, 1, …, 8191); then both are the one function Spec.lean names
  (layer), the reference by re-indexing its contraction along the inverse permutation (RefLayer.lean), the kernel block by
  block (KernelBlocks.lean) from what its host operations compute (KernelHost.lean, HostValues.lean). The kernel's
  folded scale 0.5/7 is the named constant 1/14, against the reference's halving and division by 7.

  The frames are the generated ones; the reference's is its generated run with the result dropped.
-/
import proofs.«417230_j19421842112618_3_alg».proof.Defs
import proofs.«417230_j19421842112618_3_alg».proof.Proof.Gen.Kernel
import proofs.«417230_j19421842112618_3_alg».proof.Proof.Gen.Kernel.Skeleton
import proofs.«417230_j19421842112618_3_alg».proof.Proof.Gen.Kernel.Launch
import proofs.«417230_j19421842112618_3_alg».proof.Proof.Gen.Kernel.Points
import proofs.«417230_j19421842112618_3_alg».proof.Proof.Gen.Kernel.Frame
import proofs.«417230_j19421842112618_3_alg».proof.Proof.Gen.KernelIdeal
import proofs.«417230_j19421842112618_3_alg».proof.Proof.Gen.KernelIdeal.Skeleton
import proofs.«417230_j19421842112618_3_alg».proof.Proof.Gen.KernelIdeal.Launch
import proofs.«417230_j19421842112618_3_alg».proof.Proof.Gen.KernelIdeal.Points
import proofs.«417230_j19421842112618_3_alg».proof.Proof.Gen.KernelIdeal.Frame
import proofs.«417230_j19421842112618_3_alg».proof.Proof.Gen.ReferenceIdeal
import proofs.«417230_j19421842112618_3_alg».proof.Proof.Gen.Pre_finite_inputs
import proofs.«417230_j19421842112618_3_alg».proof.Proof.Gen.KernelIdeal.Value
import proofs.«417230_j19421842112618_3_alg».proof.Proof.Gen.ReferenceIdeal.Run
import proofs.«417230_j19421842112618_3_alg».proof.Proof.Gen.ReferenceIdeal.Read
import proofs.«417230_j19421842112618_3_alg».proof.Proof.ColumnOrder
import proofs.«417230_j19421842112618_3_alg».proof.Proof.KernelHost
import proofs.«417230_j19421842112618_3_alg».proof.Proof.KernelBlocks
import proofs.«417230_j19421842112618_3_alg».proof.Proof.RefLayer
import Idealize.ShloMosaic.Adequacy
import Idealize.ShloMosaic.Init

noncomputable section

namespace Cert.Proof

open Idealize.ShloMosaic Idealize.ShloMosaic.TcCoe Idealize.SL.Sem
open Cert.Proof.NoisyLinear Cert.Proof.ColumnOrder

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the kernel's folded scale, named 1/14, denotes 1/14 at the ideal instance. -/
theorem preserves : Cert.preserves_Kernel_KernelIdeal :=
  IdealRules.named_const.statement Cert.KernelIdeal.κ "inv_14" .f32 0x3D924925#32 ((1 / 14 : ℝ) : EReal) rfl

/-- Both programs end at the layer of the arguments, read through the index vector's column order. -/
theorem algebraic : Cert.algebraic_KernelIdeal_ReferenceIdeal := by
  intro m ρ m' ρ' hpre hagree
  have hp : ∀ c : Dev Cert.KernelIdeal.nD,
      IsPerm (m ((c.tc : Thread Cert.KernelIdeal.nD Cert.KernelIdeal.τ).loc Cert.KernelIdeal.main_arg6)) :=
    fun c => isPerm_of_pre _ _ _ _ _ _ _ (hpre c)
  refine ⟨fun c => layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (colOrder (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.Proof.KernelBlocks.kernel_array m c _
          (Cert.Proof.KernelHost.hostXq_apply m c (hp c)) (Cert.Proof.KernelHost.hostXfp_apply m c (hp c))
          (Cert.Proof.KernelHost.hostB_apply m c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2.1,
      (hagree c).2.2.2.2.1, (hagree c).2.2.2.2.2.1, (hagree c).2.2.2.2.2.2]
    exact Cert.Proof.RefLayer.reference_is_layer _ _ _ _ _ _ _ _ (colOrder_bijective _) (colOrder_word' _ (hp c))

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
